-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S2x800000 : Shape := ⟨2, ![2, 800000]⟩
abbrev S128x64 : Shape := ⟨2, ![128, 64]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg2 : IVec S2x800000 32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_c_8 : IVec S_ 32 := constantI S_ 32 4294917296#32
  let main_v24 : IVec S2x800000 32 := broadcastInDim S2x800000 ![] bcast_S_S2x800000 main_c_8
  let main_v25 : IVec S2x800000 1 := cmpi .sge main_arg2 main_v24
  let main_c_9 : IVec S_ 1 := constantI S_ 1 1#1
  let main_v26 : IVec S_ 1 := (fun x v => Host.reduce IntOp.andi x v reducesTo_S2x800000_S_d0_1 h_S_) main_v25 main_c_9
  let main_v27 : IVec S_ 1 := andi main_v23 main_v26
  let main_c_10 : IVec S_ 32 := constantI S_ 32 50000#32
  let main_v28 : IVec S2x800000 32 := broadcastInDim S2x800000 ![] bcast_S_S2x800000 main_c_10
  let main_v29 : IVec S2x800000 1 := cmpi .slt main_arg2 main_v28
  let main_c_11 : IVec S_ 1 := constantI S_ 1 1#1
  let main_v30 : IVec S_ 1 := (fun x v => Host.reduce IntOp.andi x v reducesTo_S2x800000_S_d0_1 h_S_) main_v29 main_c_11
  let main_v31 : IVec S_ 1 := andi main_v27 main_v30
  main_v31

def fn {F : FTy → Type} [FloatOps F] (main_arg0 : FVec F S50000x128 .f32) (main_arg1 : FVec F S800000x64 .f32) (main_arg2 : IVec S2x800000 32) (main_arg3 : FVec F S128x64 .f32) (main_arg4 : FVec F S128x128 .f32) (main_arg5 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_v13 main_v16
-- ==== Kernel.lean ====
abbrev S50000x128 : Shape := ⟨2, ![50000, 128]⟩
abbrev S800000x64 : Shape := ⟨2, ![800000, 64]⟩
abbrev S2x800000 : Shape := ⟨2, ![2, 800000]⟩
abbrev S128x64 : Shape := ⟨2, ![128, 64]⟩
abbrev S128x128 : Shape := ⟨2, ![128, 128]⟩
abbrev S1x800000 : Shape := ⟨2, ![1, 800000]⟩
abbrev S800000 : Shape := ⟨1, ![800000]⟩
abbrev S64x128 : Shape := ⟨2, ![64, 128]⟩
abbrev S2000x128 : Shape := ⟨2, ![2000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S8000x64 : Shape := ⟨2, ![8000, 64]⟩
abbrev S8000x128 : Shape := ⟨2, ![8000, 128]⟩

abbrev nBuf : Space → Nat
  | .hbm => 62
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S2x800000, .i32⟩
  | .hbm, ⟨3, _⟩ => ⟨S128x64, .f32⟩
  | .hbm, ⟨4, _⟩ => ⟨S128x128, .f32⟩
  | .hbm, ⟨5, _⟩ => ⟨S128x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x128, .f32⟩
  | .hbm, ⟨11, _⟩ => ⟨S128x128, .f32⟩
  | .hbm, ⟨12, _⟩ => ⟨S64x128, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x128, .f32⟩
  | .hbm, ⟨34, _⟩ => ⟨S800000x128, .i1⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S1, .i32⟩
  | .hbm, ⟨47, _⟩ => ⟨S_, .i32⟩
  | .hbm, ⟨48, _⟩ => ⟨S800000x1, .i32⟩
  | .hbm, ⟨49, _⟩ => ⟨S800000x1, .i1⟩
  | .hbm, ⟨50, _⟩ => ⟨S1x1, .i32⟩
  | .hbm, ⟨51, _⟩ => ⟨S800000x1, .i32⟩
  | .hbm, ⟨52, _⟩ => ⟨S800000x1, .i1⟩
  | .hbm, ⟨53, _⟩ => ⟨S800000x1, .i1⟩
  | .hbm, ⟨54, _⟩ => ⟨S_, .i1⟩
  | .hbm, ⟨55, _⟩ => ⟨S800000, .i1⟩
  | .hbm, ⟨56, _⟩ => ⟨S800000x128, .f32⟩
  | .hbm, ⟨57, _⟩ => ⟨S800000x128, .i1⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S800000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S8000x64, .f32⟩
  | .local _ .vmem, ⟨9, _⟩ => ⟨S8000x64, .f32⟩
  | .local _ .vmem, ⟨10, _⟩ => ⟨S64x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v9 : Ref sig .tc := ⟨.hbm, 60, rfl⟩
abbrev main_v10 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  transposes_S128x64_S64x128_1_0 : S128x64.Transposes [1, 0] S64x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S8000x64_S64x128_S8000x128_1_0_0_1_n_n_wf : DotDims.WF S8000x64 S64x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S800000x128.size a
  hwx1_4 : ∀ i : grid1.Coords, EltTy.bits .f32 = 32 ∨ (Rect.block (s := S800000x128) S8000x128.size (cc1_transform_4 i) (hinb1_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S8000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S8000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S2x800000 : Shape := ⟨2, ![2, 800000]⟩
abbrev S128x64 : Shape := ⟨2, ![128, 64]⟩
abbrev S128x128 : Shape := ⟨2, ![128, 128]⟩
abbrev S1x800000 : Shape := ⟨2, ![1, 800000]⟩
abbrev S800000 : Shape := ⟨1, ![800000]⟩
abbrev S800000x128 : Shape := ⟨2, ![800000, 128]⟩
abbrev S_ : Shape := ⟨0, ![]⟩
abbrev S800000x1 : Shape := ⟨2, ![800000, 1]⟩

abbrev nBuf : Space → Nat
  | .hbm => 33
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S2x800000, .i32⟩
  | .hbm, ⟨3, _⟩ => ⟨S128x64, .f32⟩
  | .hbm, ⟨4, _⟩ => ⟨S128x128, .f32⟩
  | .hbm, ⟨5, _⟩ => ⟨S128x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000x128, .f32⟩
  | .hbm, ⟨12, _⟩ => ⟨S800000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  dot_S50000x128_S128x128_S50000x128_1_1_0_0_n_n_wf : DotDims.WF S50000x128 S128x128 S50000x128 [1] [1] [0] [0] [] []
  dot_S800000x64_S128x64_S800000x128_1_1_0_0_n_n_wf : DotDims.WF S800000x64 S128x64 S800000x128 [1] [1] [0] [0] [] []
  gather_S50000x128_S800000x1_S800000x128_1_0_n_n_0_1_1128_wf : GatherDims.WF S50000x128 S800000x1 S800000x128 [1] [0] [] [0] [] 1 ![1, 128]

variable [Facts₀]

def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf
def dot_S800000x64_S128x64_S800000x128_1_1_0_0_n_n : DotDims S800000x64 S128x64 S800000x128 where
  lhsContracting := [1]
  rhsContracting := [1]
  lhsNonContracting := [0]
  rhsNonContracting := [0]
  lhsBatch := []
  rhsBatch := []
  wf := dot_S800000x64_S128x64_S800000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf

class Facts : Prop extends Facts₀ where

variable [Facts]
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.Region0.lean ====
/-
  The node projections. The first pallas_call walks the 50000 rows of `h` in 25 blocks of 2000 rows; at each block it
  multiplies the block by two whole 128×128 matrices (the transposed weights) into a zero accumulator and writes the two
  products back to the same rows of two result arrays. Over the extended reals a change of float format is the identity,
  so entry (n, o) of a result array is the plain sum over d of h(n, d) · wt(d, o), whatever block n lies in: each
  result array is ONE function of the arrays the call finds, and the 25 blocks tile it.
-/
import proofs.«408345_j34832184770731_1_alg».proof.Proof.Gen.KernelIdeal.Frame
import proofs.«408345_j34832184770731_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- Entry (n, o) of the product of the 50000×128 array `h` with a 128×128 matrix `wt`: the sum over d of h(n, d) · wt(d, o). -/
def proj (h : S50000x128.Idx → EReal) (wt : S128x128.Idx → EReal) : S50000x128.Idx → EReal :=
  fun i => ∑ k : Fin 128, h (ix2 ⟨(i 0).val, (i 0).isLt⟩ k) * wt (ix2 k ⟨(i 1).val, (i 1).isLt⟩)

/-- The printed contraction record of the body's two products is the plain rows-by-columns one. -/
theorem dot0_plain : dot_S2000x128_S128x128_S2000x128_1_0_0_1_n_n = DotDims.plain 2000 128 128 := rfl

/-- The first product at entry (a, b) of a block: row a of the block against column b of the matrix. -/
theorem prodU_entry (x0 : Vec Ideal S2000x128 .f32) (x1 : Vec Ideal S128x128 .f32) (a : Fin 2000) (b : Fin 128) :
    k0_pay2 (F := Ideal) x0 x1 (ix2 a b) = ∑ k : Fin 128, x0 (ix2 a k) * x1 (ix2 k b) := by
  unfold k0_pay2 k0_pay1
  dsimp only
  rw [shapeCast_self]
  exact PlainMatmul.matmul_zero_apply_of_eq _ dot0_plain none x0 x1 a b

/-- The second product, the same with the other matrix. -/
theorem prodW_entry (x0 : Vec Ideal S2000x128 .f32) (x2 : Vec Ideal S128x128 .f32) (a : Fin 2000) (b : Fin 128) :
    k0_pay3 (F := Ideal) x0 x2 (ix2 a b) = ∑ k : Fin 128, x0 (ix2 a k) * x2 (ix2 k b) := by
  unfold k0_pay3 k0_pay1
  dsimp only
  rw [shapeCast_self]
  exact PlainMatmul.matmul_zero_apply_of_eq _ dot0_plain none x0 x2 a b

theorem prodU_at (x0 : Vec Ideal S2000x128 .f32) (x1 : Vec Ideal S128x128 .f32) (j : S2000x128.Idx) :
    k0_pay2 (F := Ideal) x0 x1 j = ∑ k : Fin 128, x0 (ix2 ⟨(j 0).val, (j 0).isLt⟩ k) * x1 (ix2 k ⟨(j 1).val, (j 1).isLt⟩) := by
  obtain ⟨a, b, rfl⟩ : ∃ (a : Fin 2000) (b : Fin 128), j = ix2 a b := ⟨j 0, j 1, eq_ix2 j⟩
  exact prodU_entry x0 x1 a b

theorem prodW_at (x0 : Vec Ideal S2000x128 .f32) (x2 : Vec Ideal S128x128 .f32) (j : S2000x128.Idx) :
    k0_pay3 (F := Ideal) x0 x2 j = ∑ k : Fin 128, x0 (ix2 ⟨(j 0).val, (j 0).isLt⟩ k) * x2 (ix2 k ⟨(j 1).val, (j 1).isLt⟩) := by
  obtain ⟨a, b, rfl⟩ : ∃ (a : Fin 2000) (b : Fin 128), j = ix2 a b := ⟨j 0, j 1, eq_ix2 j⟩
  exact prodW_entry x0 x2 a b

/-- The printed index maps over the 25 points: the row blocks of `h` and of both results move together, one block
    of 2000 rows per point, and every other block index is zero. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- If a 2000-row block `x0` holds the rows of `H` around row (i 0), and `x1` is `Wt`, the first product at `j` is the whole product at `i`. -/
theorem prodU_blk (H : S50000x128.Idx → EReal) (Wt : S128x128.Idx → EReal) (x0 : Vec Ideal S2000x128 .f32) (x1 : Vec Ideal S128x128 .f32)
    (j : S2000x128.Idx) (i : S50000x128.Idx)
    (hrow : ∀ k : Fin 128, x0 (ix2 ⟨(j 0).val, (j 0).isLt⟩ k) = H (ix2 ⟨(i 0).val, (i 0).isLt⟩ k))
    (hcol : ∀ k : Fin 128, x1 (ix2 k ⟨(j 1).val, (j 1).isLt⟩) = Wt (ix2 k ⟨(i 1).val, (i 1).isLt⟩)) :
    k0_pay2 (F := Ideal) x0 x1 j = proj H Wt i := by
  rw [prodU_at]
  exact Finset.sum_congr rfl fun k _ => by rw [hrow k, hcol k]

theorem prodW_blk (H : S50000x128.Idx → EReal) (Wt : S128x128.Idx → EReal) (x0 : Vec Ideal S2000x128 .f32) (x2 : Vec Ideal S128x128 .f32)
    (j : S2000x128.Idx) (i : S50000x128.Idx)
    (hrow : ∀ k : Fin 128, x0 (ix2 ⟨(j 0).val, (j 0).isLt⟩ k) = H (ix2 ⟨(i 0).val, (i 0).isLt⟩ k))
    (hcol : ∀ k : Fin 128, x2 (ix2 k ⟨(j 1).val, (j 1).isLt⟩) = Wt (ix2 k ⟨(i 1).val, (i 1).isLt⟩)) :
    k0_pay3 (F := Ideal) x0 x2 j = proj H Wt i := by
  rw [prodW_at]
  exact Finset.sum_congr rfl fun k _ => by rw [hrow k, hcol k]

/-- What point `t` writes back to the hu result array is block `t` of the product of `h` with the matrix, both as the call finds them. -/
theorem flushed_hu (c : Dev nD) (t : Fin cfg0.N) :
    (dat0 V c).flushed 3 t = ((cfg0.win 3).blk t).view.read (Elt Ideal) (proj (V c main_arg0) (V c main_v4)) := by
  show (cfg0.win 3).cut (grid0.coords t) ((dat0 V c).after 3 t) = _
  rw [after0_3]
  unfold out0_3
  rw [View.canon_unit_zero origin2]
  simp only [View.ld_unit_zero (S := S2000x128) origin2, View.ld_unit_zero (S := S128x128) origin2]
  obtain ⟨e00, e01, e10, e11, e20, e21, e30, e31, e40, e41⟩ := blocks0 t
  funext j
  have hj0 : (j 0).val < 2000 := (j 0).isLt
  have hj1 : (j 1).val < 128 := (j 1).isLt
  refine prodU_blk (V c main_arg0) (V c main_v4) (iblk0 V c 0 t) (iblk0 V c 1 t) j (((cfg0.win 3).blk t).view.emb j) (fun k => ?_) (fun k => ?_)
  · -- row (j 0) of the block of h is row 2000·t + (j 0) of h
    have hk : k.val < 128 := k.isLt
    show V c main_arg0 (((cfg0.win 0).blk t).view.emb (ix2 ⟨(j 0).val, (j 0).isLt⟩ k)) = _
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · -- the matrix is one block: its entry (k, j 1) is the array's entry (k, column of the result)
    have hk : k.val < 128 := k.isLt
    show V c main_v4 (((cfg0.win 1).blk t).view.emb (ix2 k ⟨(j 1).val, (j 1).isLt⟩)) = _
    refine congrArg (V c main_v4) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega

/-- An index of the hu result array is in point `t`'s block iff each coordinate is in the block's range on its axis. -/
theorem mem_blk_hu (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v7_0).slice (win0_3.rect t)).set ↔ _
  rw [View.set_slice_whole, Rect.mem_set_unit]
  exact Iff.rfl

/-- The 25 blocks tile the array: row n lies in the block of point n / 2000. -/
theorem cover_hu (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  rw [mem_blk_hu]
  obtain ⟨e00, e01, e10, e11, e20, e21, e30, e31, e40, e41⟩ := blocks0 ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e30]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e31]; omega

/-- The hu result array after the call: the product of `h` with the matrix, as the call finds them. -/
theorem final_hu (c : Dev nD) : (dat0 V c).arrAt 3 cfg0.N = proj (V c main_arg0) (V c main_v4) :=
  (dat0 V c).arrAt_eq_of_cover 3 (proj (V c main_arg0) (V c main_v4)) (fun t _ => flushed_hu V c t) cover_hu

/-- What point `t` writes back to the hw result array is block `t` of the product of `h` with the matrix, both as the call finds them. -/
theorem flushed_hw (c : Dev nD) (t : Fin cfg0.N) :
    (dat0 V c).flushed 4 t = ((cfg0.win 4).blk t).view.read (Elt Ideal) (proj (V c main_arg0) (V c main_v5)) := by
  show (cfg0.win 4).cut (grid0.coords t) ((dat0 V c).after 4 t) = _
  rw [after0_4]
  unfold out0_4
  rw [View.canon_unit_zero origin2]
  simp only [View.ld_unit_zero (S := S2000x128) origin2, View.ld_unit_zero (S := S128x128) origin2]
  obtain ⟨e00, e01, e10, e11, e20, e21, e30, e31, e40, e41⟩ := blocks0 t
  funext j
  have hj0 : (j 0).val < 2000 := (j 0).isLt
  have hj1 : (j 1).val < 128 := (j 1).isLt
  refine prodW_blk (V c main_arg0) (V c main_v5) (iblk0 V c 0 t) (iblk0 V c 2 t) j (((cfg0.win 4).blk t).view.emb j) (fun k => ?_) (fun k => ?_)
  · -- row (j 0) of the block of h is row 2000·t + (j 0) of h
    have hk : k.val < 128 := k.isLt
    show V c main_arg0 (((cfg0.win 0).blk t).view.emb (ix2 ⟨(j 0).val, (j 0).isLt⟩ k)) = _
    refine congrArg (V c main_arg0) (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * k.val = k.val; omega
  · -- the matrix is one block: its entry (k, j 1) is the array's entry (k, column of the result)
    have hk : k.val < 128 := k.isLt
    show V c main_v5 (((cfg0.win 2).blk t).view.emb (ix2 k ⟨(j 1).val, (j 1).isLt⟩)) = _
    refine congrArg (V c main_v5) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega

/-- An index of the hw result array is in point `t`'s block iff each coordinate is in the block's range on its axis. -/
theorem mem_blk_hw (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v7_1).slice (win0_4.rect t)).set ↔ _
  rw [View.set_slice_whole, Rect.mem_set_unit]
  exact Iff.rfl

/-- The 25 blocks tile the array: row n lies in the block of point n / 2000. -/
theorem cover_hw (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_4 _, ?_⟩
  rw [mem_blk_hw]
  obtain ⟨e00, e01, e10, e11, e20, e21, e30, e31, e40, e41⟩ := blocks0 ⟨(i 0).val / 2000, by rw [hN]; omega⟩
  intro a
  match a with
  | ⟨0, _⟩ => show win0_4.index _ (0 : Fin 2) * 2000 ≤ (i 0).val ∧ (i 0).val < win0_4.index _ (0 : Fin 2) * 2000 + 2000; rw [e40]; show (i 0).val / 2000 * 2000 ≤ (i 0).val ∧ (i 0).val < (i 0).val / 2000 * 2000 + 2000; omega
  | ⟨1, _⟩ => show win0_4.index _ (1 : Fin 2) * 128 ≤ (i 1).val ∧ (i 1).val < win0_4.index _ (1 : Fin 2) * 128 + 128; rw [e41]; omega

/-- The hw result array after the call: the product of `h` with the matrix, as the call finds them. -/
theorem final_hw (c : Dev nD) : (dat0 V c).arrAt 4 cfg0.N = proj (V c main_arg0) (V c main_v5) :=
  (dat0 V c).arrAt_eq_of_cover 4 (proj (V c main_arg0) (V c main_v5)) (fun t _ => flushed_hw V c t) cover_hw

end Cert.KernelIdeal.Hand

end
-- ==== Proof.Region1.lean ====
/-
  The edge messages. The second pallas_call walks the 800000 edges in 100 blocks of 8000; at each block it multiplies
  the block of edge features by the whole 64×128 matrix (the transposed edge weight) into a zero accumulator, adds the
  same rows of the gathered source projections, then the same rows of the gathered target projections, and writes the
  block back. Over the extended reals entry (k, o) of the result is
      (sum over d of e(k, d) · wt(d, o)) + a(k, o) + b(k, o),
  whatever block k lies in: the result array is ONE function of the four arrays the call finds, and the 100 blocks tile it.
-/
import proofs.«408345_j34832184770731_1_alg».proof.Proof.Gen.KernelIdeal.Frame
import proofs.«408345_j34832184770731_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem origin2' : (![0, 0] : Fin 2 → Nat) = fun _ => 0 := funext fun a => by fin_cases a <;> rfl

/-- Entry (k, o) of the messages: row k of `e` against column o of the 64×128 matrix `wt`, plus the two gathered rows. -/
def messages (e : S800000x64.Idx → EReal) (wt : S64x128.Idx → EReal) (a b : S800000x128.Idx → EReal) : S800000x128.Idx → EReal :=
  fun j => (∑ k : Fin 64, e (ix2 ⟨(j 0).val, (j 0).isLt⟩ k) * wt (ix2 k ⟨(j 1).val, (j 1).isLt⟩)) + a j + b j

/-- The printed contraction record of the body's product is the plain rows-by-columns one. -/
theorem dot1_plain : dot_S8000x64_S64x128_S8000x128_1_0_0_1_n_n = DotDims.plain 8000 64 128 := rfl

/-- The body's stored value at entry (a, b) of a block. -/
theorem body_entry (x0 : Vec Ideal S8000x64 .f32) (x1 : Vec Ideal S64x128 .f32) (x2 x3 : Vec Ideal S8000x128 .f32) (a : Fin 8000) (b : Fin 128) :
    k1_pay1 (F := Ideal) x0 x1 x2 x3 (ix2 a b) = (∑ k : Fin 64, x0 (ix2 a k) * x1 (ix2 k b)) + x2 (ix2 a b) + x3 (ix2 a b) := by
  unfold k1_pay1
  rw [shapeCast_self, shapeCast_self, shapeCast_self]
  refine congrArg (· + x3 (ix2 a b)) (congrArg (· + x2 (ix2 a b)) ?_)
  exact PlainMatmul.matmul_zero_apply_of_eq _ dot1_plain none x0 x1 a b

theorem body_at (x0 : Vec Ideal S8000x64 .f32) (x1 : Vec Ideal S64x128 .f32) (x2 x3 : Vec Ideal S8000x128 .f32) (j : S8000x128.Idx) :
    k1_pay1 (F := Ideal) x0 x1 x2 x3 j = (∑ k : Fin 64, x0 (ix2 ⟨(j 0).val, (j 0).isLt⟩ k) * x1 (ix2 k ⟨(j 1).val, (j 1).isLt⟩)) + x2 j + x3 j := by
  obtain ⟨a, b, rfl⟩ : ∃ (a : Fin 8000) (b : Fin 128), j = ix2 a b := ⟨j 0, j 1, eq_ix2 j⟩
  exact body_entry x0 x1 x2 x3 a b

/-- The printed index maps over the 100 points: the row blocks of `e`, of the two gathered arrays and of the result
    move together, one block of 8000 rows per point, and every other block index is zero. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- If the four blocks hold the rows of the four arrays around row (i 0), the body's stored value at `j` is the messages at `i`. -/
theorem body_blk (E : S800000x64.Idx → EReal) (Wt : S64x128.Idx → EReal) (A B : S800000x128.Idx → EReal)
    (x0 : Vec Ideal S8000x64 .f32) (x1 : Vec Ideal S64x128 .f32) (x2 x3 : Vec Ideal S8000x128 .f32)
    (j : S8000x128.Idx) (i : S800000x128.Idx)
    (hrow : ∀ k : Fin 64, x0 (ix2 ⟨(j 0).val, (j 0).isLt⟩ k) = E (ix2 ⟨(i 0).val, (i 0).isLt⟩ k))
    (hcol : ∀ k : Fin 64, x1 (ix2 k ⟨(j 1).val, (j 1).isLt⟩) = Wt (ix2 k ⟨(i 1).val, (i 1).isLt⟩))
    (ha : x2 j = A i) (hb : x3 j = B i) :
    k1_pay1 (F := Ideal) x0 x1 x2 x3 j = messages E Wt A B i := by
  rw [body_at, ha, hb]
  exact congrArg (· + A i + B i) (Finset.sum_congr rfl fun k _ => by rw [hrow k, hcol k])

/-- What point `t` writes back is block `t` of the messages of the four arrays as the call finds them. -/
theorem flushed_out (c : Dev nD) (t : Fin cfg1.N) :
    (dat1 V c).flushed 4 t = ((cfg1.win 4).blk t).view.read (Elt Ideal) (messages (V c main_arg1) (V c main_v6) (V c main_v8) (V c main_v9)) := by
  show (cfg1.win 4).cut (grid1.coords t) ((dat1 V c).after 4 t) = _
  rw [after1_4]
  unfold out1_4
  rw [View.canon_unit_zero origin2']
  simp only [View.ld_unit_zero (S := S8000x64) origin2', View.ld_unit_zero (S := S64x128) origin2', View.ld_unit_zero (S := S8000x128) origin2']
  obtain ⟨e00, e01, e10, e11, e20, e21, e30, e31, e40, e41⟩ := blocks1 t
  funext j
  have hj0 : (j 0).val < 8000 := (j 0).isLt
  have hj1 : (j 1).val < 128 := (j 1).isLt
  refine body_blk (V c main_arg1) (V c main_v6) (V c main_v8) (V c main_v9) (iblk1 V c 0 t) (iblk1 V c 1 t) (iblk1 V c 2 t) (iblk1 V c 3 t) j
    (((cfg1.win 4).blk t).view.emb j) (fun k => ?_) (fun k => ?_) ?_ ?_
  · -- row (j 0) of the block of e is row 8000·t + (j 0) of e
    have hk : k.val < 64 := k.isLt
    show V c main_arg1 (((cfg1.win 0).blk t).view.emb (ix2 ⟨(j 0).val, (j 0).isLt⟩ k)) = _
    refine congrArg (V c main_arg1) (funext fun a => Fin.ext ?_)
    match a with
    | ⟨0, _⟩ => show win1_0.index t (0 : Fin 2) * 8000 + 1 * (j 0).val = win1_4.index t (0 : Fin 2) * 8000 + 1 * (j 0).val; omega
    | ⟨1, _⟩ => show win1_0.index t (1 : Fin 2) * 64 + 1 * k.val = k.val; omega
  · -- the matrix is one block
    have hk : k.val < 64 := k.isLt
    show V c main_v6 (((cfg1.win 1).blk t).view.emb (ix2 k ⟨(j 1).val, (j 1).isLt⟩)) = _
    refine congrArg (V c main_v6) (funext fun a => Fin.ext ?_)
    match a with
    | ⟨0, _⟩ => show win1_1.index t (0 : Fin 2) * 64 + 1 * k.val = k.val; omega
    | ⟨1, _⟩ => show win1_1.index t (1 : Fin 2) * 128 + 1 * (j 1).val = win1_4.index t (1 : Fin 2) * 128 + 1 * (j 1).val; omega
  · -- the gathered source rows are read at the result's own rows
    show V c main_v8 (((cfg1.win 2).blk t).view.emb j) = _
    refine congrArg (V c main_v8) (funext fun a => Fin.ext ?_)
    match a with
    | ⟨0, _⟩ => show win1_2.index t (0 : Fin 2) * 8000 + 1 * (j 0).val = win1_4.index t (0 : Fin 2) * 8000 + 1 * (j 0).val; omega
    | ⟨1, _⟩ => show win1_2.index t (1 : Fin 2) * 128 + 1 * (j 1).val = win1_4.index t (1 : Fin 2) * 128 + 1 * (j 1).val; omega
  · -- and so are the gathered target rows
    show V c main_v9 (((cfg1.win 3).blk t).view.emb j) = _
    refine congrArg (V c main_v9) (funext fun a => Fin.ext ?_)
    match a with
    | ⟨0, _⟩ => show win1_3.index t (0 : Fin 2) * 8000 + 1 * (j 0).val = win1_4.index t (0 : Fin 2) * 8000 + 1 * (j 0).val; omega
    | ⟨1, _⟩ => show win1_3.index t (1 : Fin 2) * 128 + 1 * (j 1).val = win1_4.index t (1 : Fin 2) * 128 + 1 * (j 1).val; omega

/-- An index of the result array is in point `t`'s block iff each coordinate is in the block's range on its axis. -/
theorem mem_blk_out (t : Fin cfg1.N) (i : S800000x128.Idx) :
    i ∈ ((cfg1.win 4).blk t).view.set ↔ ∀ a : Fin 2, win1_4.index t a * S8000x128.size a ≤ (i a).val ∧ (i a).val < win1_4.index t a * S8000x128.size a + S8000x128.size a := by
  show i ∈ ((View.whole main_v10).slice (win1_4.rect t)).set ↔ _
  rw [View.set_slice_whole, Rect.mem_set_unit]
  exact Iff.rfl

/-- The 100 blocks tile the array: edge k lies in the block of point k / 8000. -/
theorem cover_out (i : S800000x128.Idx) : ∃ t : Fin cfg1.N, (cfg1.win 4).flush t = true ∧ i ∈ ((cfg1.win 4).blk t).view.set := by
  have hi0 : (i 0).val < 800000 := (i 0).isLt
  have hi1 : (i 1).val < 128 := (i 1).isLt
  have hN : cfg1.N = 100 := N_1
  refine ⟨⟨(i 0).val / 8000, by rw [hN]; omega⟩, flush1_4 _, ?_⟩
  rw [mem_blk_out]
  obtain ⟨e00, e01, e10, e11, e20, e21, e30, e31, e40, e41⟩ := blocks1 ⟨(i 0).val / 8000, by rw [hN]; omega⟩
  intro a
  match a with
  | ⟨0, _⟩ => show win1_4.index _ (0 : Fin 2) * 8000 ≤ (i 0).val ∧ (i 0).val < win1_4.index _ (0 : Fin 2) * 8000 + 8000; rw [e40]; show (i 0).val / 8000 * 8000 ≤ (i 0).val ∧ (i 0).val < (i 0).val / 8000 * 8000 + 8000; omega
  | ⟨1, _⟩ => show win1_4.index _ (1 : Fin 2) * 128 ≤ (i 1).val ∧ (i 1).val < win1_4.index _ (1 : Fin 2) * 128 + 128; rw [e41]; omega

/-- The result array after the call: the messages of the four arrays as the call finds them. -/
theorem final_out (c : Dev nD) : (dat1 V c).arrAt 4 cfg1.N = messages (V c main_arg1) (V c main_v6) (V c main_v8) (V c main_v9) :=
  (dat1 V c).arrAt_eq_of_cover 4 (messages (V c main_arg1) (V c main_v6) (V c main_v8) (V c main_v9)) (fun t _ => flushed_out V c t) cover_out

end Cert.KernelIdeal.Hand

end
-- ==== Proof.TakeRows.lean ====
/-
  Taking rows of a table by an index vector, the way `jnp.take` does it in "fill" mode. An index below zero is first
  wrapped once (index + 50000); the wrapped index is then tested against the table's range 0 … 49999; the gather reads
  the row at the (clamped) wrapped index; and a row whose wrapped index failed the test is replaced by a NaN pattern.
  When every index lies in −50000 … 49999 the wrapped index is in range, the test passes on every row, and the whole
  operation is the plain gather at the wrapped indices.
-/
import proofs.«408345_j34832184770731_1_alg».proof.Proof.Gen.KernelIdeal
import Idealize.ShloMosaic.Lib.Affine
import Idealize.ShloMosaic.PureOps.Ideal
import Idealize.ShloMosaic.PureOps.Reduce

noncomputable section

namespace Cert.KernelIdeal.Hand

open Idealize.ShloMosaic Idealize.ShloMosaic.TcCoe Idealize.SL.Sem
open Cert.KernelIdeal Cert.KernelIdeal.Gen

/-- One index, wrapped: a negative one moves up by the table's 50000 rows. -/
def wrap (x : BitVec 32) : BitVec 32 := Scalar.select (IntOp.cmpi .slt x 0#32) (IntOp.addi x 50000#32) x

/-- An index in −50000 … 49999 wraps into 0 … 49999. -/
theorem wrap_in_range (x : BitVec 32) (hlo : -50000 ≤ x.toInt) (hhi : x.toInt < 50000) :
    0 ≤ (wrap x).toInt ∧ (wrap x).toInt ≤ 49999 := by
  unfold wrap Scalar.select
  have hz : (0#32 : BitVec 32).toInt = 0 := by decide
  by_cases hneg : x.toInt < 0
  · have h1 : IntOp.cmpi .slt x 0#32 = 1 := IntOp.cmpi_slt.mpr (by rw [hz]; exact hneg)
    rw [if_pos h1]
    unfold IntOp.addi
    rw [BitVec.toInt_eq_toNat_cond] at hlo hhi hneg ⊢
    rw [BitVec.toNat_add]
    have h5 : (50000#32 : BitVec 32).toNat = 50000 := by decide
    rw [h5]
    have hx : x.toNat < 2 ^ 32 := x.isLt
    omega
  · have h0 : ¬ IntOp.cmpi .slt x 0#32 = 1 := fun h => hneg (by have := IntOp.cmpi_slt.mp h; rw [hz] at this; exact this)
    rw [if_neg h0]; omega

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    refine foldl_andi_one f l _ ?_ fun n hn => hl n (List.mem_cons_of_mem _ hn)
    show IntOp.andi init (f a) = 1#1
    rw [h, hl a (List.mem_cons_self)]; decide

/-- A reduction by `and` from 1 of an array of 1s is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_one x _ _ (hi _) fun n _ => hx n

/-- A select whose condition is 1 everywhere is its first branch. -/
theorem select_all_one {s : Shape} {α : Type} (cnd : IVec s 1) (a b : s.Idx → α) (h : ∀ i, cnd i = 1#1) : select cnd a b = a :=
  funext fun i => by
    show (if cnd i = 1 then a i else b i) = a i
    rw [if_pos (show cnd i = 1 from h i)]

/-- Row 0 of the index array: the source node of every edge. -/
def srcRow (x2 : IVec S2x800000 32) : IVec S800000 32 :=
  shapeCast S800000 (extractStridedSlice S1x800000 ![0, 0] x2 slices_S2x800000_S1x800000_0_0) shapeCasts_S1x800000_S800000
/-- Row 1 of the index array: the target node of every edge. -/
def tgtRow (x2 : IVec S2x800000 32) : IVec S800000 32 :=
  shapeCast S800000 (extractStridedSlice S1x800000 ![1, 0] x2 slices_S2x800000_S1x800000_1_0) shapeCasts_S1x800000_S800000
/-- Every entry of the source row is an entry of the index array. -/
theorem srcRow_apply (x2 : IVec S2x800000 32) (p : S800000.Idx) : ∃ i, srcRow x2 p = x2 i := ⟨_, rfl⟩
/-- Every entry of the target row is an entry of the index array. -/
theorem tgtRow_apply (x2 : IVec S2x800000 32) (p : S800000.Idx) : ∃ i, tgtRow x2 p = x2 i := ⟨_, rfl⟩

/-- The wrapped indices, as the one-column array the gather takes. -/
def takeIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Every entry of the index column is some index of the vector, wrapped. -/
theorem takeIdx_apply (s : IVec S800000 32) (i : S800000x1.Idx) : ∃ p, takeIdx s i = wrap (s p) := ⟨_, rfl⟩

/-- Per row: does the wrapped index lie in 0 … 49999? -/
def takeOk (s : IVec S800000 32) : IVec S800000 1 :=
  Host.reduce IntOp.andi
    (andi (cmpi .sge (takeIdx s) (broadcastInDim S800000x1 ![] bcast_S_S800000x1 (constantI S_ 32 0#32)))
      (cmpi .sle (takeIdx s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The take in fill mode: the gathered rows, a NaN pattern where the wrapped index is out of range. -/
def takeFill (tbl : FVec Ideal S50000x128 .f32) (s : IVec S800000 32) : FVec Ideal S800000x128 .f32 :=
  select (broadcastInDim S800000x128 ![0] bcast_S800000_S800000x128_0 (takeOk s))
    (Host.gather gather_S50000x128_S800000x1_S800000x128_1_0_n_n_0_1_1128 tbl (takeIdx s))
    (broadcastInDim S800000x128 ![] bcast_S_S800000x128 (constant (F := Ideal) S_ .f32 0x7FC00000#32))

/-- With every index in −50000 … 49999 the range test passes on every row. -/
theorem takeOk_one (s : IVec S800000 32) (hs : ∀ p, -50000 ≤ (s p).toInt ∧ (s p).toInt < 50000) (k : S800000.Idx) :
    takeOk s k = 1#1 := by
  unfold takeOk
  refine reduce_andi_one _ _ _ _ (fun i => ?_) (fun _ => rfl) k
  obtain ⟨p, hp⟩ := takeIdx_apply s i
  show IntOp.andi (IntOp.cmpi .sge (takeIdx s i) 0#32) (IntOp.cmpi .sle (takeIdx s i) 49999#32) = 1#1
  rw [hp]
  obtain ⟨h0, h1⟩ := wrap_in_range (s p) (hs p).1 (hs p).2
  refine IntOp.andi_eq_one.mpr ⟨IntOp.cmpi_sge.mpr ?_, IntOp.cmpi_sle.mpr ?_⟩
  · rw [show (0#32 : BitVec 32).toInt = 0 from by decide]; exact h0
  · rw [show (49999#32 : BitVec 32).toInt = 49999 from by decide]; exact h1

/-- So the take is the plain gather at the wrapped indices. -/
theorem takeFill_eq (tbl : FVec Ideal S50000x128 .f32) (s : IVec S800000 32)
    (hs : ∀ p, -50000 ≤ (s p).toInt ∧ (s p).toInt < 50000) :
    takeFill tbl s = Host.gather gather_S50000x128_S800000x1_S800000x128_1_0_n_n_0_1_1128 tbl (takeIdx s) := by
  unfold takeFill
  exact select_all_one _ _ _ fun j => takeOk_one s hs _

end Cert.KernelIdeal.Hand

end
-- ==== Proof.HostRead.lean ====
/-
  What the host operations around the two pallas_calls leave in each buffer, as functions of the contents `U` they
  start from: the first stretch splits the index array into its source and target rows and transposes the three
  weights; the second and third stretches are the two takes (rows of the projected node tables by source, by target).
  Every other buffer a stretch does not write keeps its contents.
-/
import proofs.«408345_j34832184770731_1_alg».proof.Proof.Gen.KernelIdeal.Launch
import proofs.«408345_j34832184770731_1_alg».proof.Proof.TakeRows
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (U : Valuation τ sig (Elt Ideal))

/-- Writing a value to a typed reference's buffer and reading it back is the identity. -/
theorem ofBuf_toBuf {T : BufTy} (x : TRef sig T) (v : T.Contents (Elt Ideal)) : x.ofBuf (x.toBuf v) = v := by
  obtain ⟨ref, rfl, h2, h3⟩ := x
  rfl

/-! ## The first stretch -/

theorem first_src : StableHlo.after (hostOps0 (F := Ideal)) U (Proc.devRef .tc main_v1) = srcRow (U (Proc.devRef .tc main_arg2)) := by
  after_results
  rfl
theorem first_tgt : StableHlo.after (hostOps0 (F := Ideal)) U (Proc.devRef .tc main_v3) = tgtRow (U (Proc.devRef .tc main_arg2)) := by
  after_results
  rfl
theorem first_whuT : StableHlo.after (hostOps0 (F := Ideal)) U (Proc.devRef .tc main_v4)
    = transpose S128x128 [1, 0] (U (Proc.devRef .tc main_arg4)) transposes_S128x128_S128x128_1_0 := by
  after_results
theorem first_whwT : StableHlo.after (hostOps0 (F := Ideal)) U (Proc.devRef .tc main_v5)
    = transpose S128x128 [1, 0] (U (Proc.devRef .tc main_arg5)) transposes_S128x128_S128x128_1_0 := by
  after_results
theorem first_weT : StableHlo.after (hostOps0 (F := Ideal)) U (Proc.devRef .tc main_v6)
    = transpose S64x128 [1, 0] (U (Proc.devRef .tc main_arg3)) transposes_S128x64_S64x128_1_0 := by
  after_results
theorem first_h : StableHlo.after (hostOps0 (F := Ideal)) U (Proc.devRef .tc main_arg0) = U (Proc.devRef .tc main_arg0) := by
  after_results
theorem first_e : StableHlo.after (hostOps0 (F := Ideal)) U (Proc.devRef .tc main_arg1) = U (Proc.devRef .tc main_arg1) := by
  after_results

/-! ## The take by source -/

-- the gather and the reduction stay folded: the equation never looks inside them
attribute [local irreducible] Host.reduce Host.gather in
set_option maxHeartbeats 4000000 in
theorem second_take : StableHlo.after (hostOps1 (F := Ideal)) U (Proc.devRef .tc main_v8)
    = takeFill (U (Proc.devRef .tc main_v7_0)) (U (Proc.devRef .tc main_v1)) := by
  after_results
  simp only [ofBuf_toBuf]
  rfl
theorem second_e : StableHlo.after (hostOps1 (F := Ideal)) U (Proc.devRef .tc main_arg1) = U (Proc.devRef .tc main_arg1) := by
  after_results
theorem second_weT : StableHlo.after (hostOps1 (F := Ideal)) U (Proc.devRef .tc main_v6) = U (Proc.devRef .tc main_v6) := by
  after_results
theorem second_tgt : StableHlo.after (hostOps1 (F := Ideal)) U (Proc.devRef .tc main_v3) = U (Proc.devRef .tc main_v3) := by
  after_results
theorem second_hw : StableHlo.after (hostOps1 (F := Ideal)) U (Proc.devRef .tc main_v7_1) = U (Proc.devRef .tc main_v7_1) := by
  after_results

/-! ## The take by target -/

attribute [local irreducible] Host.reduce Host.gather in
set_option maxHeartbeats 4000000 in
theorem third_take : StableHlo.after (hostOps1_1 (F := Ideal)) U (Proc.devRef .tc main_v9)
    = takeFill (U (Proc.devRef .tc main_v7_1)) (U (Proc.devRef .tc main_v3)) := by
  after_results
  simp only [ofBuf_toBuf]
  rfl
theorem third_src_take : StableHlo.after (hostOps1_1 (F := Ideal)) U (Proc.devRef .tc main_v8) = U (Proc.devRef .tc main_v8) := by
  after_results
theorem third_e : StableHlo.after (hostOps1_1 (F := Ideal)) U (Proc.devRef .tc main_arg1) = U (Proc.devRef .tc main_arg1) := by
  after_results
theorem third_weT : StableHlo.after (hostOps1_1 (F := Ideal)) U (Proc.devRef .tc main_v6) = U (Proc.devRef .tc main_v6) := by
  after_results

end Cert.KernelIdeal.Hand

end
-- ==== Proof.Result.lean ====
/-
  The messages as one function of the six arguments.
-/
import proofs.«408345_j34832184770731_1_alg».proof.Proof.Region0
import proofs.«408345_j34832184770731_1_alg».proof.Proof.Region1
import proofs.«408345_j34832184770731_1_alg».proof.Proof.TakeRows

noncomputable section

namespace Cert.KernelIdeal.Hand

open Idealize.ShloMosaic Idealize.ShloMosaic.TcCoe Idealize.SL.Sem
open Cert.KernelIdeal Cert.KernelIdeal.Gen

/-- Edge features times the transposed edge weight, plus the rows of h·W_huᵀ taken by source, plus the rows of
    h·W_hwᵀ taken by target. -/
def result (x0 : FVec Ideal S50000x128 .f32) (x1 : FVec Ideal S800000x64 .f32) (x2 : IVec S2x800000 32)
    (x3 : FVec Ideal S128x64 .f32) (x4 x5 : FVec Ideal S128x128 .f32) : FVec Ideal S800000x128 .f32 :=
  messages x1 (transpose S64x128 [1, 0] x3 transposes_S128x64_S64x128_1_0)
    (takeFill (proj x0 (transpose S128x128 [1, 0] x4 transposes_S128x128_S128x128_1_0)) (srcRow x2))
    (takeFill (proj x0 (transpose S128x128 [1, 0] x5 transposes_S128x128_S128x128_1_0)) (tgtRow x2))

end Cert.KernelIdeal.Hand

end
-- ==== Proof.KValue.lean ====
/-
  The kernel program's result array as one function of its six arguments. Walking @main backwards from the last segment
  boundary: the second pallas_call leaves the messages of the edge features, the transposed edge weight and the two
  taken arrays; each taken array is the take, by the source or the target row of the index array, of a node table the
  first pallas_call left, which is the product of `h` with a transposed node weight; no argument is ever overwritten.
-/
import proofs.«408345_j34832184770731_1_alg».proof.Proof.Gen.KernelIdeal.Frame
import proofs.«408345_j34832184770731_1_alg».proof.Proof.Region0
import proofs.«408345_j34832184770731_1_alg».proof.Proof.Region1
import proofs.«408345_j34832184770731_1_alg».proof.Proof.TakeRows
import proofs.«408345_j34832184770731_1_alg».proof.Proof.HostRead
import proofs.«408345_j34832184770731_1_alg».proof.Proof.Result

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What the first pallas_call finds and leaves -/

theorem entry0_h (c : Dev nD) : V1 m ρ c main_arg0 = m ((c : Thread nD τ).loc main_arg0) :=
  first_h (W0 m ρ c)
theorem entry0_whuT (c : Dev nD) : V1 m ρ c main_v4
    = transpose S128x128 [1, 0] (m ((c : Thread nD τ).loc main_arg4)) transposes_S128x128_S128x128_1_0 :=
  first_whuT (W0 m ρ c)
theorem entry0_whwT (c : Dev nD) : V1 m ρ c main_v5
    = transpose S128x128 [1, 0] (m ((c : Thread nD τ).loc main_arg5)) transposes_S128x128_S128x128_1_0 :=
  first_whwT (W0 m ρ c)

/-- The source-side node table after the first call. -/
theorem table_hu (c : Dev nD) : W2 m ρ c (Proc.devRef .tc main_v7_0)
    = proj (m ((c : Thread nD τ).loc main_arg0)) (transpose S128x128 [1, 0] (m ((c : Thread nD τ).loc main_arg4)) transposes_S128x128_S128x128_1_0) := by
  refine (W2_arr m ρ c 3).trans ((final_hu (V1 m ρ) c).trans ?_)
  rw [entry0_h, entry0_whuT]
/-- The target-side node table after the first call. -/
theorem table_hw (c : Dev nD) : W2 m ρ c (Proc.devRef .tc main_v7_1)
    = proj (m ((c : Thread nD τ).loc main_arg0)) (transpose S128x128 [1, 0] (m ((c : Thread nD τ).loc main_arg5)) transposes_S128x128_S128x128_1_0) := by
  refine (W2_arr m ρ c 4).trans ((final_hw (V1 m ρ) c).trans ?_)
  rw [entry0_h, entry0_whwT]

/-- The first call writes neither index row. -/
theorem src_after0 (c : Dev nD) : W2 m ρ c (Proc.devRef .tc main_v1) = srcRow (m ((c : Thread nD τ).loc main_arg2)) :=
  (W2_of_ne m ρ c main_v1 (by decide)).trans (first_src (W0 m ρ c))
theorem tgt_after0 (c : Dev nD) : W2 m ρ c (Proc.devRef .tc main_v3) = tgtRow (m ((c : Thread nD τ).loc main_arg2)) :=
  (W2_of_ne m ρ c main_v3 (by decide)).trans (first_tgt (W0 m ρ c))

/-! ## What the second pallas_call finds -/

theorem entry1_e (c : Dev nD) : V4 m ρ c main_arg1 = m ((c : Thread nD τ).loc main_arg1) :=
  (third_e (W3 m ρ c)).trans ((second_e (W2 m ρ c)).trans ((W2_of_ne m ρ c main_arg1 (by decide)).trans (first_e (W0 m ρ c))))
theorem entry1_weT (c : Dev nD) : V4 m ρ c main_v6
    = transpose S64x128 [1, 0] (m ((c : Thread nD τ).loc main_arg3)) transposes_S128x64_S64x128_1_0 :=
  (third_weT (W3 m ρ c)).trans ((second_weT (W2 m ρ c)).trans ((W2_of_ne m ρ c main_v6 (by decide)).trans (first_weT (W0 m ρ c))))
theorem entry1_src (c : Dev nD) : V4 m ρ c main_v8
    = takeFill (proj (m ((c : Thread nD τ).loc main_arg0)) (transpose S128x128 [1, 0] (m ((c : Thread nD τ).loc main_arg4)) transposes_S128x128_S128x128_1_0))
        (srcRow (m ((c : Thread nD τ).loc main_arg2))) := by
  refine (third_src_take (W3 m ρ c)).trans ((second_take (W2 m ρ c)).trans ?_)
  rw [table_hu, src_after0]
/-- The take by source writes neither the target-side table nor the target row. -/
theorem table_hw_after1 (c : Dev nD) : W3 m ρ c (Proc.devRef .tc main_v7_1)
    = proj (m ((c : Thread nD τ).loc main_arg0)) (transpose S128x128 [1, 0] (m ((c : Thread nD τ).loc main_arg5)) transposes_S128x128_S128x128_1_0) :=
  (second_hw (W2 m ρ c)).trans (table_hw m ρ c)
theorem tgt_after1 (c : Dev nD) : W3 m ρ c (Proc.devRef .tc main_v3) = tgtRow (m ((c : Thread nD τ).loc main_arg2)) :=
  (second_tgt (W2 m ρ c)).trans (tgt_after0 m ρ c)
theorem entry1_tgt (c : Dev nD) : V4 m ρ c main_v9
    = takeFill (proj (m ((c : Thread nD τ).loc main_arg0)) (transpose S128x128 [1, 0] (m ((c : Thread nD τ).loc main_arg5)) transposes_S128x128_S128x128_1_0))
        (tgtRow (m ((c : Thread nD τ).loc main_arg2))) := by
  refine (third_take (W3 m ρ c)).trans ?_
  rw [table_hw_after1, tgt_after1]

/-! ## The result array -/

/-- At the last segment boundary the result array holds `result` of the six arguments as launched. -/
theorem result_array (c : Dev nD) : W5 m ρ c (Proc.devRef .tc main_v10)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W5_arr m ρ c 4).trans ((final_out (V4 m ρ) c).trans ?_)
  rw [entry1_e, entry1_weT, entry1_src, entry1_tgt]
  rfl

end Cert.KernelIdeal.Hand

end
-- ==== Proof.Bridge.lean ====
/-
  The kernel program's function of the arguments is the reference's. Over the extended reals:
  * h·Wᵀ, entry (n, o) = sum over d of h(n, d) · Wᵀ(d, o) with Wᵀ(d, o) = W(o, d), is the reference's contraction of
    `h` and `W` over their second axes; the same for the edge features and the edge weight;
  * the wrapped index column is built by the same operations on both sides;
  * where every index lies in −50000 … 49999 the kernel's fill-mode take is the reference's plain gather;
  * both programs add the three terms in the same order.
-/
import proofs.«408345_j34832184770731_1_alg».proof.Proof.Result
import proofs.«408345_j34832184770731_1_alg».proof.Proof.Gen.ReferenceIdeal.Read
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Cert.KernelIdeal Cert.KernelIdeal.Gen
open Cert.ReferenceIdeal.Read (val_main_v4 val_main_v5 val_main_v6 val_main_v12 val_main_v20 val_main_v13 val_main_v21 val_main_v14 val_main_v22)

/-- h·W_huᵀ is the reference's contraction of `h` and `W_hu` over their second axes. -/
theorem proj_eq_dotU (x0 : FVec Ideal S50000x128 .f32) (x4 : FVec Ideal S128x128 .f32) :
    proj x0 (transpose S128x128 [1, 0] x4 transposes_S128x128_S128x128_1_0) = val_main_v4 (F := Ideal) x0 x4 := by
  funext i
  rw [Cert.ReferenceIdeal.Read.val_main_v4_apply]
  show (∑ k : Fin 128, x0 (ix2 ⟨(i 0).val, (i 0).isLt⟩ k) * transpose S128x128 [1, 0] x4 transposes_S128x128_S128x128_1_0 (ix2 k ⟨(i 1).val, (i 1).isLt⟩)) = _
  refine Finset.sum_congr rfl fun k _ => ?_
  have el : ix2 ⟨(i 0).val, (i 0).isLt⟩ k = Cert.ReferenceIdeal.Read.lidx_main_v4 i k :=
    funext fun a => by match a with | ⟨0, _⟩ => rfl | ⟨1, _⟩ => rfl
  have er : transpose S128x128 [1, 0] x4 transposes_S128x128_S128x128_1_0 (ix2 k ⟨(i 1).val, (i 1).isLt⟩) = x4 (Cert.ReferenceIdeal.Read.ridx_main_v4 i k) :=
    transpose_apply _ x4 _ _ _ (fun b => by match b with | ⟨0, _⟩ => rfl | ⟨1, _⟩ => rfl)
  exact congrArg₂ (· * ·) (congrArg x0 el) er

/-- h·W_hwᵀ likewise. -/
theorem proj_eq_dotW (x0 : FVec Ideal S50000x128 .f32) (x5 : FVec Ideal S128x128 .f32) :
    proj x0 (transpose S128x128 [1, 0] x5 transposes_S128x128_S128x128_1_0) = val_main_v5 (F := Ideal) x0 x5 := by
  funext i
  rw [Cert.ReferenceIdeal.Read.val_main_v5_apply]
  show (∑ k : Fin 128, x0 (ix2 ⟨(i 0).val, (i 0).isLt⟩ k) * transpose S128x128 [1, 0] x5 transposes_S128x128_S128x128_1_0 (ix2 k ⟨(i 1).val, (i 1).isLt⟩)) = _
  refine Finset.sum_congr rfl fun k _ => ?_
  have el : ix2 ⟨(i 0).val, (i 0).isLt⟩ k = Cert.ReferenceIdeal.Read.lidx_main_v5 i k :=
    funext fun a => by match a with | ⟨0, _⟩ => rfl | ⟨1, _⟩ => rfl
  have er : transpose S128x128 [1, 0] x5 transposes_S128x128_S128x128_1_0 (ix2 k ⟨(i 1).val, (i 1).isLt⟩) = x5 (Cert.ReferenceIdeal.Read.ridx_main_v5 i k) :=
    transpose_apply _ x5 _ _ _ (fun b => by match b with | ⟨0, _⟩ => rfl | ⟨1, _⟩ => rfl)
  exact congrArg₂ (· * ·) (congrArg x0 el) er

/-- e·W_eᵀ at an entry is the reference's contraction of `e` and `W_e` over their second axes. -/
theorem edge_eq_dot (x1 : FVec Ideal S800000x64 .f32) (x3 : FVec Ideal S128x64 .f32) (j : S800000x128.Idx) :
    (∑ k : Fin 64, x1 (ix2 ⟨(j 0).val, (j 0).isLt⟩ k) * transpose S64x128 [1, 0] x3 transposes_S128x64_S64x128_1_0 (ix2 k ⟨(j 1).val, (j 1).isLt⟩))
      = val_main_v6 (F := Ideal) x1 x3 j := by
  rw [Cert.ReferenceIdeal.Read.val_main_v6_apply]
  refine Finset.sum_congr rfl fun k _ => ?_
  have el : ix2 ⟨(j 0).val, (j 0).isLt⟩ k = Cert.ReferenceIdeal.Read.lidx_main_v6 j k :=
    funext fun a => by match a with | ⟨0, _⟩ => rfl | ⟨1, _⟩ => rfl
  have er : transpose S64x128 [1, 0] x3 transposes_S128x64_S64x128_1_0 (ix2 k ⟨(j 1).val, (j 1).isLt⟩) = x3 (Cert.ReferenceIdeal.Read.ridx_main_v6 j k) :=
    transpose_apply _ x3 _ _ _ (fun b => by match b with | ⟨0, _⟩ => rfl | ⟨1, _⟩ => rfl)
  exact congrArg₂ (· * ·) (congrArg x1 el) er

/-- The wrapped source column is the reference's. -/
theorem src_col_eq (x2 : IVec S2x800000 32) : takeIdx (srcRow x2) = val_main_v12 (F := Ideal) x2 := rfl
/-- The wrapped target column is the reference's. -/
theorem tgt_col_eq (x2 : IVec S2x800000 32) : takeIdx (tgtRow x2) = val_main_v20 (F := Ideal) x2 := rfl
/-- The two programs print the same gather record. -/
theorem gather_rec_eq : gather_S50000x128_S800000x1_S800000x128_1_0_n_n_0_1_1128
    = Cert.ReferenceIdeal.gather_S50000x128_S800000x1_S800000x128_1_0_n_n_0_1_1128 := rfl

/-- Where every index lies in −50000 … 49999, the kernel program's function of the arguments is the reference's. -/
theorem result_eq_reference (x0 : FVec Ideal S50000x128 .f32) (x1 : FVec Ideal S800000x64 .f32) (x2 : IVec S2x800000 32)
    (x3 : FVec Ideal S128x64 .f32) (x4 x5 : FVec Ideal S128x128 .f32)
    (hr : ∀ i, -50000 ≤ (x2 i).toInt ∧ (x2 i).toInt < 50000) :
    result x0 x1 x2 x3 x4 x5 = val_main_v22 (F := Ideal) x0 x1 x2 x3 x4 x5 := by
  have hsrc : ∀ p, -50000 ≤ (srcRow x2 p).toInt ∧ (srcRow x2 p).toInt < 50000 := fun p => by
    obtain ⟨i, hi⟩ := srcRow_apply x2 p; rw [hi]; exact hr i
  have htgt : ∀ p, -50000 ≤ (tgtRow x2 p).toInt ∧ (tgtRow x2 p).toInt < 50000 := fun p => by
    obtain ⟨i, hi⟩ := tgtRow_apply x2 p; rw [hi]; exact hr i
  unfold result
  rw [takeFill_eq _ _ hsrc, takeFill_eq _ _ htgt, proj_eq_dotU, proj_eq_dotW, src_col_eq, tgt_col_eq, gather_rec_eq]
  funext j
  rw [Cert.ReferenceIdeal.Read.val_main_v22_apply, Cert.ReferenceIdeal.Read.val_main_v14_apply, ← edge_eq_dot]
  rfl

end Cert.KernelIdeal.Hand

end
-- ==== Proof.PreRead.lean ====
/-
  The precondition, read back. Its printed form is a chain of `and`s of seven `jnp.all`s; the last two say that every
  entry of the index array is at least −50000 and below 50000 (compared as signed 32-bit words). From "the predicate is
  all ones" follow, entry by entry, the two inequalities between the signed values.
-/
import proofs.«408345_j34832184770731_1_alg».proof.Pre_finite_inputs
import Idealize.ShloMosaic.PureOps.Ideal
import Idealize.ShloMosaic.Lib.ReduceAll

noncomputable section

namespace Cert.Pre_finite_inputs.Hand

open Idealize.ShloMosaic Cert.Pre_finite_inputs

variable [Facts]

/-- The scalar shape has one index. -/
instance : Subsingleton S_.Idx := ⟨fun a b => funext fun d => d.elim0⟩

/-- Where the precondition holds, every index word lies in −50000 … 49999. -/
theorem index_range (x0 : FVec Ideal S50000x128 .f32) (x1 : FVec Ideal S800000x64 .f32) (x2 : IVec S2x800000 32)
    (x3 : FVec Ideal S128x64 .f32) (x4 x5 : FVec Ideal S128x128 .f32)
    (h : fn (F := Ideal) x0 x1 x2 x3 x4 x5 = fun _ => 1#1) (i : S2x800000.Idx) :
    -50000 ≤ (x2 i).toInt ∧ (x2 i).toInt < 50000 := by
  have h0 := congrFun h (fun d => d.elim0)
  unfold fn fn_part1 at h0
  dsimp only at h0
  have h0' : IntOp.andi _ _ = 1#1 := h0
  obtain ⟨h27, h30⟩ := IntOp.andi_eq_one.mp h0'
  have h27' : IntOp.andi _ _ = 1#1 := h27
  obtain ⟨-, h26⟩ := IntOp.andi_eq_one.mp h27'
  have hge : IntOp.cmpi .sge (x2 i) 4294917296#32 = 1#1 := Host.reduce_andi_all _ _ _ _ _ h26 i
  have hlt : IntOp.cmpi .slt (x2 i) 50000#32 = 1#1 := Host.reduce_andi_all _ _ _ _ _ h30 i
  have e1 : (4294917296#32 : BitVec 32).toInt = -50000 := by decide
  have e2 : (50000#32 : BitVec 32).toInt = 50000 := by decide
  have a1 := IntOp.cmpi_sge.mp hge
  have a2 := IntOp.cmpi_slt.mp hlt
  rw [e1] at a1
  rw [e2] at a2
  exact ⟨a1, a2⟩

end Cert.Pre_finite_inputs.Hand

end
-- ==== Proof.lean ====
/-
  Message passing on a graph: for every edge k with source s(k) and target t(k),
      messages(k, ·) = e(k, ·)·W_eᵀ + (h·W_huᵀ)(s(k), ·) + (h·W_hwᵀ)(t(k), ·).
  The kernel program computes the two node tables h·W_huᵀ and h·W_hwᵀ in a first pallas_call (25 blocks of 2000 nodes),
  takes their rows by source and by target on the host (`jnp.take`: a negative index wraps once, an index still outside
  0 … 49999 yields a NaN row), and forms the sum in a second pallas_call (100 blocks of 8000 edges). The reference
  contracts the same arrays on the host, indexes the two tables directly (the same wrap, then a gather that clamps) and
  adds the three terms in the same order.

  Over the extended reals a change of float format is the identity and a matrix product into a zero accumulator is the
  plain sum over the contracted coordinate, so the two node tables and the edge term agree entry by entry, without any
  law that would need finiteness. The two programs part only where an index, after the wrap, is still out of range: the
  kernel's take then fills with a NaN pattern where the reference's gather clamps. The precondition therefore asks, beside
  finite float inputs, that every index lie in −50000 … 49999; there the wrapped index is in 0 … 49999, the kernel's
  range test passes on every row, and both programs read the same row.

  The three frames are the generated ones (the reference's is its generated run with the result dropped); the ideal
  pass rewrote nothing, so the idealization claim is trivial.
-/
import proofs.«408345_j34832184770731_1_alg».proof.Defs
import proofs.«408345_j34832184770731_1_alg».proof.Proof.Gen.Kernel
import proofs.«408345_j34832184770731_1_alg».proof.Proof.Gen.Kernel.Skeleton
import proofs.«408345_j34832184770731_1_alg».proof.Proof.Gen.Kernel.Launch
import proofs.«408345_j34832184770731_1_alg».proof.Proof.Gen.Kernel.Points
import proofs.«408345_j34832184770731_1_alg».proof.Proof.Gen.Kernel.Frame
import proofs.«408345_j34832184770731_1_alg».proof.Proof.Gen.KernelIdeal
import proofs.«408345_j34832184770731_1_alg».proof.Proof.Gen.KernelIdeal.Skeleton
import proofs.«408345_j34832184770731_1_alg».proof.Proof.Gen.KernelIdeal.Launch
import proofs.«408345_j34832184770731_1_alg».proof.Proof.Gen.KernelIdeal.Points
import proofs.«408345_j34832184770731_1_alg».proof.Proof.Gen.KernelIdeal.Frame
import proofs.«408345_j34832184770731_1_alg».proof.Proof.Gen.ReferenceIdeal
import proofs.«408345_j34832184770731_1_alg».proof.Proof.Gen.ReferenceIdeal.Run
import proofs.«408345_j34832184770731_1_alg».proof.Proof.Gen.ReferenceIdeal.Read
import proofs.«408345_j34832184770731_1_alg».proof.Proof.Gen.Pre_finite_inputs
import proofs.«408345_j34832184770731_1_alg».proof.Proof.KRun
import proofs.«408345_j34832184770731_1_alg».proof.Proof.KValue
import proofs.«408345_j34832184770731_1_alg».proof.Proof.Bridge
import proofs.«408345_j34832184770731_1_alg».proof.Proof.PreRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `result` of the arguments: the kernel program by its run read back through the two
    pallas_calls, the reference by its run, whose term is that function wherever every index is in −50000 … 49999. -/
theorem algebraic : Cert.algebraic_KernelIdeal_ReferenceIdeal := by
  intro m ρ m' ρ' hpre hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.result_array m ρ c), (h c).2⟩)
      (Cert.KernelIdeal.Gen.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v22_eq, (hagree c).1, (hagree c).2.1, (hagree c).2.2.1,
      (hagree c).2.2.2.1, (hagree c).2.2.2.2.1, (hagree c).2.2.2.2.2]
    exact (Cert.KernelIdeal.Hand.result_eq_reference _ _ _ _ _ _
      (fun i => Cert.Pre_finite_inputs.Hand.index_range _ _ _ _ _ _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
